-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x4096 : Shape := ⟨3, ![4, 32, 4096]⟩
abbrev S11008x4096 : Shape := ⟨2, ![11008, 4096]⟩
abbrev S4096x11008 : Shape := ⟨2, ![4096, 11008]⟩
abbrev S_ : Shape := ⟨0, ![]⟩

class Facts : Prop where
  bcast_S_S4x32x4096 : S_.BroadcastsInDim S4x32x4096 (![] : Fin 0 → Fin S4x32x4096.rank)
  reducesTo_S4x32x4096_S_d0_1_2 : S4x32x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S4x32x4096 .f32) (main_arg1 : FVec F S11008x4096 .f32) (main_arg2 : FVec F S11008x4096 .f32) (main_arg3 : FVec F S4096x11008 .f32) : IVec S_ 1 :=
  let main_v0 : FVec F S4x32x4096 .f32 := Host.absf main_arg0
  let main_cst : FVec F S_ .f32 := constant S_ .f32 0x7F800000#32
  let main_v1 : FVec F S4x32x4096 .f32 := broadcastInDim S4x32x4096 ![] bcast_S_S4x32x4096 main_cst
  let main_v2 : IVec S4x32x4096 1 := cmpf .olt main_v0 main_v1
  let main_c : IVec S_ 1 := constantI S_ 1 1#1
  let main_v3 : IVec S_ 1 := (fun x v => Host.reduce IntOp.andi x v reducesTo_S4x32x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S4x32x4096 : Shape := ⟨3, ![4, 32, 4096]⟩
abbrev S11008x4096 : Shape := ⟨2, ![11008, 4096]⟩
abbrev S4096x11008 : Shape := ⟨2, ![4096, 11008]⟩
abbrev S128x4096 : Shape := ⟨2, ![128, 4096]⟩
abbrev S4096x128 : Shape := ⟨2, ![4096, 128]⟩
abbrev S128x128 : Shape := ⟨2, ![128, 128]⟩

abbrev nBuf : Space → Nat
  | .hbm => 7
  | .vmem => 9
  | .smem => 0
  | _ => 0

abbrev bufTy : (tb : Table) → Fin (tcTables nBuf tb) → BufTy
  | .hbm, ⟨0, _⟩ => ⟨S4x32x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S128x4096, .f32⟩
  | .hbm, ⟨5, _⟩ => ⟨S128x4096, .f32⟩
  | .hbm, ⟨6, _⟩ => ⟨S4x32x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S4096x128, .f32⟩
  | .local _ .vmem, ⟨6, _⟩ => ⟨S4096x128, .f32⟩
  | .local _ .vmem, ⟨7, _⟩ => ⟨S128x4096, .f32⟩
  | .local _ .vmem, ⟨8, _⟩ => ⟨S128x4096, .f32⟩
  | _, _ => ⟨S4x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![86], ![false]⟩

def k0_cond2 (i : grid0.Coords) : BitVec 1 :=
  let arg0 : BitVec 32 := BitVec.ofNat 32 (i 0).val
  let c85_i32 : BitVec 32 := 85#32
  let v24 : BitVec 1 := Scalar.cmpi .eq arg0 c85_i32
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S4x32x4096_S128x4096 : S4x32x4096.ShapeCasts S128x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S128x4096_S4x32x4096 : S128x4096.ShapeCasts S4x32x4096
  dot_S128x4096_S128x4096_S128x128_1_1_0_0_n_n_wf : DotDims.WF S128x4096 S128x4096 S128x128 [1] [1] [0] [0] [] []
  dot_S128x128_S4096x128_S128x4096_1_1_0_0_n_n_wf : DotDims.WF S128x128 S4096x128 S128x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x4096.size a
  hwx0_0 : ∀ i : grid0.Coords, EltTy.bits .f32 = 32 ∨ (Rect.block (s := S128x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S11008x4096.size a
  hwx0_1 : ∀ i : grid0.Coords, EltTy.bits .f32 = 32 ∨ (Rect.block (s := S11008x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S11008x4096.size a
  hwx0_2 : ∀ i : grid0.Coords, EltTy.bits .f32 = 32 ∨ (Rect.block (s := S11008x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x11008.size a
  hwx0_3 : ∀ i : grid0.Coords, EltTy.bits .f32 = 32 ∨ (Rect.block (s := S4096x11008) S4096x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S128x4096.size a
  hwx0_4 : ∀ i : grid0.Coords, EltTy.bits .f32 = 32 ∨ (Rect.block (s := S128x4096) S128x4096.size (cc0_transform_4 i) (hinb0_4 i)).WholeWords (EltTy.packing .f32)

variable [Facts₀]

def dot_S128x4096_S128x4096_S128x128_1_1_0_0_n_n : DotDims S128x4096 S128x4096 S128x128 where
  lhsContracting := [1]
  rhsContracting := [1]
  lhsNonContracting := [0]
  rhsNonContracting := [0]
  lhsBatch := []
  rhsBatch := []
  wf := dot_S128x4096_S128x4096_S128x128_1_1_0_0_n_n_wf
def dot_S128x128_S4096x128_S128x4096_1_1_0_0_n_n : DotDims S128x128 S4096x128 S128x4096 where
  lhsContracting := [1]
  rhsContracting := [1]
  lhsNonContracting := [0]
  rhsNonContracting := [0]
  lhsBatch := []
  rhsBatch := []
  wf := dot_S128x128_S4096x128_S128x4096_1_1_0_0_n_n_wf

abbrev win0_0 : Pipeline.Window sig grid0 :=
  Pipeline.Window.ofSpec (Memref.whole main_v0) S128x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x4096.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x32x4096 : Shape := ⟨3, ![4, 32, 4096]⟩
abbrev S11008x4096 : Shape := ⟨2, ![11008, 4096]⟩
abbrev S4096x11008 : Shape := ⟨2, ![4096, 11008]⟩
abbrev S4x32x11008 : Shape := ⟨3, ![4, 32, 11008]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x32x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S4x32x11008, .f32⟩
  | .hbm, ⟨5, _⟩ => ⟨S4x32x11008, .f32⟩
  | .hbm, ⟨6, _⟩ => ⟨S4x32x11008, .f32⟩
  | .hbm, ⟨7, _⟩ => ⟨S_, .f32⟩
  | .hbm, ⟨8, _⟩ => ⟨S4x32x11008, .f32⟩
  | .hbm, ⟨9, _⟩ => ⟨S4x32x11008, .f32⟩
  | .hbm, ⟨10, _⟩ => ⟨S_, .f32⟩
  | .hbm, ⟨11, _⟩ => ⟨S4x32x11008, .f32⟩
  | .hbm, ⟨12, _⟩ => ⟨S4x32x11008, .f32⟩
  | .hbm, ⟨13, _⟩ => ⟨S4x32x11008, .f32⟩
  | .hbm, ⟨14, _⟩ => ⟨S4x32x11008, .f32⟩
  | .hbm, ⟨15, _⟩ => ⟨S4x32x11008, .f32⟩
  | .hbm, ⟨16, _⟩ => ⟨S4x32x4096, .f32⟩
  | _, _ => ⟨S4x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S4x32x11008 : S_.BroadcastsInDim S4x32x11008 (![] : Fin 0 → Fin S4x32x11008.rank)
  dot_S4x32x4096_S11008x4096_S4x32x11008_2_1_01_0_n_n_wf : DotDims.WF S4x32x4096 S11008x4096 S4x32x11008 [2] [1] [0, 1] [0] [] []
  dot_S4x32x11008_S4096x11008_S4x32x4096_2_1_01_0_n_n_wf : DotDims.WF S4x32x11008 S4096x11008 S4x32x4096 [2] [1] [0, 1] [0] [] []

variable [Facts₀]

def dot_S4x32x4096_S11008x4096_S4x32x11008_2_1_01_0_n_n : DotDims S4x32x4096 S11008x4096 S4x32x11008 where
  lhsContracting := [2]
  rhsContracting := [1]
  lhsNonContracting := [0, 1]
  rhsNonContracting := [0]
  lhsBatch := []
  rhsBatch := []
  wf := dot_S4x32x4096_S11008x4096_S4x32x11008_2_1_01_0_n_n_wf
def dot_S4x32x11008_S4096x11008_S4x32x4096_2_1_01_0_n_n : DotDims S4x32x11008 S4096x11008 S4x32x4096 where
  lhsContracting := [2]
  rhsContracting := [1]
  lhsNonContracting := [0, 1]
  rhsNonContracting := [0]
  lhsBatch := []
  rhsBatch := []
  wf := dot_S4x32x11008_S4096x11008_S4x32x4096_2_1_01_0_n_n_wf

class Facts : Prop extends Facts₀ where

variable [Facts]
-- ==== Proof.Pieces.lean ====
/-
  What one run of the body leaves behind, as values.

  The body's last store into the accumulator covers it whole, so after a point the accumulator holds that store's
  value: the update of the four input blocks and of what the accumulator held when it was loaded. At the first point
  that load comes after the reset, so it reads the zero block; at every other point it reads what the point before
  left. At the last point the output block is stored from a load of the accumulator made after the update, so it holds
  the same value.
-/
import proofs.«167758_j21182778703897_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point: the accumulator ends at the update of the zero block. -/
theorem scratch_first (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S128x4096 .f32) (harg6 : arg6.IsWhole) (hc0 : cond0_0 i) (hc1 : ¬cond0_1 i) (x0 : Vec F S128x4096 .f32) (x1 : Vec F S128x4096 .f32) (x2 : Vec F S128x4096 .f32) (x3 : Vec F S4096x128 .f32) :
    sout0_A_0 c i arg1 harg1 arg2 harg2 arg3 harg3 arg4 harg4 arg5 harg5 arg6 harg6 hc0 hc1 x0 x1 x2 x3 = k0_pay2 x0 x1 x2 x3 (k0_pay1 (F := F)) := by
  unfold sout0_A_0
  rw [View.read_writes_eq_canon _ _ _ (scover0_A_0 c i arg1 harg1 arg2 harg2 arg3 harg3 arg4 harg4 arg5 harg5 arg6 harg6 hc0 hc1 x0 x1 x2 x3)]
  unfold kernelRun0_A
  dsimp only
  sl_unfold_words
  rw [View.canon_cons_unit_zero (S := S128x4096) hz]
  simp only [View.readAt_eq_ld, harg1.read_unread, harg2.read_unread, harg3.read_unread, harg4.read_unread, harg6.read_unread,
    View.readCov_unit_zero (S := S128x4096) _ hz, View.ld_unit_zero (S := S128x4096) hz, View.ld_unit_zero (S := S4096x128) hz]

/-- A middle point: the accumulator ends at the update of what the point before left. -/
theorem scratch_middle (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S128x4096 .f32) (harg6 : arg6.IsWhole) (hc0 : ¬cond0_0 i) (hc1 : ¬cond0_1 i) (x0 : Vec F S128x4096 .f32) (x1 : Vec F S128x4096 .f32) (x2 : Vec F S128x4096 .f32) (x3 : Vec F S4096x128 .f32) (xs0 : Vec F S128x4096 .f32) :
    sout0_B_0 c i arg1 harg1 arg2 harg2 arg3 harg3 arg4 harg4 arg5 harg5 arg6 harg6 hc0 hc1 x0 x1 x2 x3 xs0 = k0_pay2 x0 x1 x2 x3 xs0 := by
  unfold sout0_B_0
  rw [View.read_writes_eq_canon _ _ _ (scover0_B_0 c i arg1 harg1 arg2 harg2 arg3 harg3 arg4 harg4 arg5 harg5 arg6 harg6 hc0 hc1 x0 x1 x2 x3 xs0)]
  unfold kernelRun0_B
  dsimp only
  sl_unfold_words
  rw [View.canon_unit_zero hz]
  simp only [View.readAt_eq_ld, harg1.read_unread, harg2.read_unread, harg3.read_unread, harg4.read_unread, harg6.read_unread,
    View.readCov_unit_zero (S := S128x4096) _ hz, View.ld_unit_zero (S := S128x4096) hz, View.ld_unit_zero (S := S4096x128) hz]

/-- The last point: the same for the accumulator, -/
theorem scratch_last (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S128x4096 .f32) (harg6 : arg6.IsWhole) (hc0 : ¬cond0_0 i) (hc1 : cond0_1 i) (x0 : Vec F S128x4096 .f32) (x1 : Vec F S128x4096 .f32) (x2 : Vec F S128x4096 .f32) (x3 : Vec F S4096x128 .f32) (xs0 : Vec F S128x4096 .f32) :
    sout0_C_0 c i arg1 harg1 arg2 harg2 arg3 harg3 arg4 harg4 arg5 harg5 arg6 harg6 hc0 hc1 x0 x1 x2 x3 xs0 = k0_pay2 x0 x1 x2 x3 xs0 := by
  unfold sout0_C_0
  rw [View.read_writes_eq_canon _ _ _ (scover0_C_0 c i arg1 harg1 arg2 harg2 arg3 harg3 arg4 harg4 arg5 harg5 arg6 harg6 hc0 hc1 x0 x1 x2 x3 xs0)]
  unfold kernelRun0_C
  dsimp only
  sl_unfold_words
  rw [View.canon_unit_zero hz]
  simp only [View.readAt_eq_ld, harg1.read_unread, harg2.read_unread, harg3.read_unread, harg4.read_unread, harg6.read_unread,
    View.readCov_unit_zero (S := S128x4096) _ hz, View.ld_unit_zero (S := S128x4096) hz, View.ld_unit_zero (S := S4096x128) hz]

/-- and the output block, stored from the accumulator read back, holds that value too. -/
theorem out_last (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S128x4096 .f32) (harg6 : arg6.IsWhole) (hc0 : ¬cond0_0 i) (hc1 : cond0_1 i) (x0 : Vec F S128x4096 .f32) (x1 : Vec F S128x4096 .f32) (x2 : Vec F S128x4096 .f32) (x3 : Vec F S4096x128 .f32) (xs0 : Vec F S128x4096 .f32) :
    out0_C_4 c i arg1 harg1 arg2 harg2 arg3 harg3 arg4 harg4 arg5 harg5 arg6 harg6 hc0 hc1 x0 x1 x2 x3 xs0 = k0_pay2 x0 x1 x2 x3 xs0 := by
  unfold out0_C_4
  rw [View.read_writes_eq_canon _ _ _ (cover0_C_4 c i arg1 harg1 arg2 harg2 arg3 harg3 arg4 harg4 arg5 harg5 arg6 harg6 hc0 hc1 x0 x1 x2 x3 xs0)]
  unfold kernelRun0_C
  dsimp only
  sl_unfold_words
  rw [View.canon_unit_zero hz]
  simp only [View.readAt_eq_ld, harg1.read_unread, harg2.read_unread, harg3.read_unread, harg4.read_unread, harg6.read_unread,
    View.readCov_unit_zero (S := S128x4096) _ hz, View.ld_unit_zero (S := S128x4096) hz, View.ld_unit_zero (S := S4096x128) hz]

end Cert.KernelIdeal.Pieces

end
-- ==== Proof.LibTileSum.lean ====
/-
  A sum over `Fin N` with `N = T * B` cut into `T` consecutive tiles of `B` terms, in any commutative
  additive monoid (the extended reals among them: only commutativity and associativity of `+` are used, so no
  finiteness is asked of the terms), and the running sum of the tiles' partial sums in tile order.

  The index of term `j` of tile `t` is written `(B * t + j) % N`: a total function of the natural number `t`,
  equal to `B * t + j` for every tile `t < T`, which is what lets the running sum be stated over `Finset.range`
  with no proof terms inside the summand.
-/
import Mathlib.Algebra.BigOperators.Fin
import Mathlib.Algebra.BigOperators.Intervals

namespace TileSum

open Finset

/-- Term `j` of tile `t` among `N` terms cut into tiles of `B`: position `B * t + j`, wrapped into range. -/
def tileIdx (B N : ℕ) (hN : 0 < N) (t : ℕ) (j : Fin B) : Fin N := ⟨(B * t + j.val) % N, Nat.mod_lt _ hN⟩

theorem tileIdx_val {B N : ℕ} (hN : 0 < N) {T : ℕ} (hTB : N = T * B) {t : ℕ} (ht : t < T) (j : Fin B) :
    (tileIdx B N hN t j).val = B * t + j.val := by
  unfold tileIdx
  apply Nat.mod_eq_of_lt
  have hj := j.isLt
  calc B * t + j.val < B * t + B := by omega
    _ = B * (t + 1) := (Nat.mul_succ B t).symm
    _ ≤ B * T := Nat.mul_le_mul_left _ ht
    _ = N := by rw [hTB, Nat.mul_comm]

/-- A sum over the first `T * B` naturals is the sum over `T` tiles of the sums over each tile's `B` terms. -/
theorem sum_range_mul {M : Type*} [AddCommMonoid M] (B : ℕ) (g : ℕ → M) :
    ∀ T : ℕ, ∑ i ∈ range (T * B), g i = ∑ t ∈ range T, ∑ j ∈ range B, g (B * t + j)
  | 0 => by simp
  | T + 1 => by
    rw [Nat.succ_mul, sum_range_add, sum_range_succ, sum_range_mul B g T, Nat.mul_comm T B]

/-- The sum over `Fin N`, `N = T * B`, tile by tile. -/
theorem sum_tiles {M : Type*} [AddCommMonoid M] (T B N : ℕ) (hTB : N = T * B) (hN : 0 < N) (f : Fin N → M) :
    ∑ i, f i = ∑ t ∈ range T, ∑ j : Fin B, f (tileIdx B N hN t j) := by
  have h1 : ∑ i, f i = ∑ i : Fin N, (fun n : ℕ => f ⟨n % N, Nat.mod_lt _ hN⟩) i.val :=
    Finset.sum_congr rfl fun i _ => congrArg f (Fin.ext (Nat.mod_eq_of_lt i.isLt).symm)
  rw [h1, Fin.sum_univ_eq_sum_range (fun n : ℕ => f ⟨n % N, Nat.mod_lt _ hN⟩) N]
  subst hTB
  rw [sum_range_mul B _ T]
  refine Finset.sum_congr rfl fun t _ => ?_
  rw [← Fin.sum_univ_eq_sum_range (fun j : ℕ => f ⟨(B * t + j) % (T * B), Nat.mod_lt _ hN⟩) B]
  rfl

/-- The running sum in tile order, started from a stored zero: `(0 + p 0) + p 1 + … + p n` is `∑ t ≤ n, p t`. -/
def running {M : Type*} [AddCommMonoid M] (p : ℕ → M) : ℕ → M
  | 0 => 0 + p 0
  | n + 1 => running p n + p (n + 1)

theorem running_zero {M : Type*} [AddCommMonoid M] (p : ℕ → M) : running p 0 = 0 + p 0 := rfl

theorem running_succ {M : Type*} [AddCommMonoid M] (p : ℕ → M) (n : ℕ) : running p (n + 1) = running p n + p (n + 1) := rfl

theorem running_eq_sum {M : Type*} [AddCommMonoid M] (p : ℕ → M) : ∀ n, running p n = ∑ t ∈ range (n + 1), p t
  | 0 => by simp [running]
  | n + 1 => by rw [running, running_eq_sum p n, sum_range_succ _ (n + 1)]

end TileSum
-- ==== Proof.Spec.lean ====
/-
  The gated feed-forward block as ONE function of its four argument arrays, over the extended reals.

  With rows `p < 128` (a flattened batch position), hidden units `i < 11008` and features `k, q < 4096`:
    proj x w p i     = ∑ k, x[p, k] · w[i, k]                     (a row of x against row i of a weight)
    hidden p i       = (g · σ(g)) · u,  g = proj x w_gate p i,  u = proj x w_up p i,  σ(g) = 1 / (1 + e^(-g))
    mlp [p, q]       = ∑ i, hidden p i · w_down[q, i].
  The hidden units are cut into 86 tiles of 128; `tilePart … t` is tile `t`'s share of the last sum, and the whole
  sum is the sum of the 86 shares (`mlp_eq_sum_tiles`): a regrouping of one sum, so nothing is asked of the terms.
-/
import Idealize.ShloMosaic.PureOps.Ideal
import Idealize.ShloMosaic.Lib.ValueIdx
import proofs.«167758_j21182778703897_1_alg».proof.Proof.LibTileSum

noncomputable section

namespace Cert.Mlp

open Idealize.ShloMosaic Idealize.ShloMosaic.ValueIdx Finset

/-- The activations, flattened to rows. -/
abbrev SX : Shape := ⟨2, ![128, 4096]⟩
/-- The gate and up weights: one row per hidden unit. -/
abbrev SW : Shape := ⟨2, ![11008, 4096]⟩
/-- The down weights: one row per output feature. -/
abbrev SD : Shape := ⟨2, ![4096, 11008]⟩

theorem hidden_pos : 0 < 11008 := by decide
theorem hidden_tiles : 11008 = 86 * 128 := by decide

/-- Hidden unit `j` of tile `t`: unit `128 t + j` (for `t < 86`). -/
abbrev unit (t : ℕ) (j : Fin 128) : Fin 11008 := TileSum.tileIdx 128 11008 hidden_pos t j

theorem unit_val {t : ℕ} (ht : t < 86) (j : Fin 128) : (unit t j).val = 128 * t + j.val :=
  TileSum.tileIdx_val hidden_pos hidden_tiles ht j

/-- Row `p` of `x` against row `i` of a weight matrix. -/
def proj (x : FVec Ideal SX .f32) (w : FVec Ideal SW .f32) (p : Fin 128) (i : Fin 11008) : EReal :=
  ∑ k : Fin 4096, x (ix2 p k) * w (ix2 i k)

/-- The gated hidden activation of unit `i` at row `p`: `(g · σ(g)) · u`. -/
def hidden (x : FVec Ideal SX .f32) (wg wu : FVec Ideal SW .f32) (p : Fin 128) (i : Fin 11008) : EReal :=
  proj x wg p i * Ideal.logistic (proj x wg p i) * proj x wu p i

/-- The block's output at row `p`, feature `q`. -/
def mlp (x : FVec Ideal SX .f32) (wg wu : FVec Ideal SW .f32) (wd : FVec Ideal SD .f32) : FVec Ideal SX .f32 :=
  fun j => ∑ i : Fin 11008, hidden x wg wu (j 0) i * wd (ix2 (j 1) i)

/-- Tile `t`'s share of the output at `[p, q]`: the 128 hidden units `128 t … 128 t + 127`. -/
def tilePart (x : FVec Ideal SX .f32) (wg wu : FVec Ideal SW .f32) (wd : FVec Ideal SD .f32) (p : Fin 128) (q : Fin 4096)
    (t : ℕ) : EReal :=
  ∑ j : Fin 128, hidden x wg wu p (unit t j) * wd (ix2 q (unit t j))

/-- The output is the sum of the 86 tiles' shares. -/
theorem mlp_eq_sum_tiles (x : FVec Ideal SX .f32) (wg wu : FVec Ideal SW .f32) (wd : FVec Ideal SD .f32)
    (p : Fin 128) (q : Fin 4096) :
    mlp x wg wu wd (ix2 p q) = ∑ t ∈ range 86, tilePart x wg wu wd p q t :=
  TileSum.sum_tiles 86 128 11008 hidden_tiles hidden_pos fun i => hidden x wg wu p i * wd (ix2 q i)

/-- What the accumulator holds after tile `n`, started from a stored zero, is the sum of the shares so far. -/
theorem running_tiles (x : FVec Ideal SX .f32) (wg wu : FVec Ideal SW .f32) (wd : FVec Ideal SD .f32)
    (p : Fin 128) (q : Fin 4096) (n : ℕ) :
    TileSum.running (tilePart x wg wu wd p q) n = ∑ t ∈ range (n + 1), tilePart x wg wu wd p q t :=
  TileSum.running_eq_sum _ n

end Cert.Mlp

end
-- ==== Proof.Blocks.lean ====
/-
  Where each input block sits in its array.

  At grid point `t` the body sees the whole activation array (its one block), rows `128 t … 128 t + 127` of the gate
  and of the up weights, and columns `128 t … 128 t + 127` of the down weights: a block's entry `[a, b]` is the
  array's entry at (block index × block extent + a, …) on each axis.
-/
import proofs.«167758_j21182778703897_1_alg».proof.Proof.Gen.KernelIdeal.Frame
import proofs.«167758_j21182778703897_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The four arrays as the region finds them, and the four blocks at a point, under their literal types. -/
abbrev xArr (c : Dev nD) : Vec F S128x4096 .f32 := V m c main_v0
abbrev wgArr (c : Dev nD) : Vec F S11008x4096 .f32 := V m c main_arg1
abbrev wuArr (c : Dev nD) : Vec F S11008x4096 .f32 := V m c main_arg2
abbrev wdArr (c : Dev nD) : Vec F S4096x11008 .f32 := V m c main_arg3
abbrev xBlk (c : Dev nD) (t : Fin cfg0.N) : Vec F S128x4096 .f32 := iblk m c 0 t
abbrev wgBlk (c : Dev nD) (t : Fin cfg0.N) : Vec F S128x4096 .f32 := iblk m c 1 t
abbrev wuBlk (c : Dev nD) (t : Fin cfg0.N) : Vec F S128x4096 .f32 := iblk m c 2 t
abbrev wdBlk (c : Dev nD) (t : Fin cfg0.N) : Vec F S4096x128 .f32 := iblk m c 3 t

/-- The block indices, decided once over the grid: the activations' never moves; the weights' follow the point. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val)

theorem point_lt (t : Fin cfg0.N) : t.val < 86 := lt_of_lt_of_eq t.isLt (show cfg0.N = 86 from N_0)

/-- The activations' one block is the whole array. -/
theorem xBlk_apply (c : Dev nD) (t : Fin cfg0.N) (p : Fin 128) (k : Fin 4096) :
    xBlk m c t (ix2 p k) = xArr m c (ix2 p k) := by
  show iblk m c 0 t (ix2 p k) = V m c main_v0 (ix2 p k)
  unfold iblk
  rw [View.read_apply]
  show V m c main_v0 _ = V m c main_v0 _
  congr 1
  funext a
  apply Fin.ext
  match a with
  | ⟨0, _⟩ =>
    show win0_0.index t 0 * 128 + 1 * (p).val = (p).val
    rw [(idx_facts t).1]; omega
  | ⟨1, _⟩ =>
    show win0_0.index t 1 * 4096 + 1 * (k).val = (k).val
    rw [(idx_facts t).2.1]; omega

/-- Row `j` of the gate weights' block at point `t` is row `128 t + j` of the array. -/
theorem wgBlk_apply (c : Dev nD) (t : Fin cfg0.N) (j : Fin 128) (k : Fin 4096) :
    wgBlk m c t (ix2 j k) = wgArr m c (ix2 (Cert.Mlp.unit t.val j) k) := by
  show iblk m c 1 t (ix2 j k) = V m c main_arg1 (ix2 (Cert.Mlp.unit t.val j) k)
  unfold iblk
  rw [View.read_apply]
  show V m c main_arg1 _ = V m c main_arg1 _
  congr 1
  funext a
  apply Fin.ext
  match a with
  | ⟨0, _⟩ =>
    show win0_1.index t 0 * 128 + 1 * (j).val = (Cert.Mlp.unit t.val j).val
    rw [(idx_facts t).2.2.1, Cert.Mlp.unit_val (point_lt t)]; omega
  | ⟨1, _⟩ =>
    show win0_1.index t 1 * 4096 + 1 * (k).val = (k).val
    rw [(idx_facts t).2.2.2.1]; omega

/-- The same for the up weights. -/
theorem wuBlk_apply (c : Dev nD) (t : Fin cfg0.N) (j : Fin 128) (k : Fin 4096) :
    wuBlk m c t (ix2 j k) = wuArr m c (ix2 (Cert.Mlp.unit t.val j) k) := by
  show iblk m c 2 t (ix2 j k) = V m c main_arg2 (ix2 (Cert.Mlp.unit t.val j) k)
  unfold iblk
  rw [View.read_apply]
  show V m c main_arg2 _ = V m c main_arg2 _
  congr 1
  funext a
  apply Fin.ext
  match a with
  | ⟨0, _⟩ =>
    show win0_2.index t 0 * 128 + 1 * (j).val = (Cert.Mlp.unit t.val j).val
    rw [(idx_facts t).2.2.2.2.1, Cert.Mlp.unit_val (point_lt t)]; omega
  | ⟨1, _⟩ =>
    show win0_2.index t 1 * 4096 + 1 * (k).val = (k).val
    rw [(idx_facts t).2.2.2.2.2.1]; omega

/-- Column `j` of the down weights' block at point `t` is column `128 t + j` of the array. -/
theorem wdBlk_apply (c : Dev nD) (t : Fin cfg0.N) (q : Fin 4096) (j : Fin 128) :
    wdBlk m c t (ix2 q j) = wdArr m c (ix2 q (Cert.Mlp.unit t.val j)) := by
  show iblk m c 3 t (ix2 q j) = V m c main_arg3 (ix2 q (Cert.Mlp.unit t.val j))
  unfold iblk
  rw [View.read_apply]
  show V m c main_arg3 _ = V m c main_arg3 _
  congr 1
  funext a
  apply Fin.ext
  match a with
  | ⟨0, _⟩ =>
    show win0_3.index t 0 * 4096 + 1 * (q).val = (q).val
    rw [(idx_facts t).2.2.2.2.2.2.1]; omega
  | ⟨1, _⟩ =>
    show win0_3.index t 1 * 128 + 1 * (j).val = (Cert.Mlp.unit t.val j).val
    rw [(idx_facts t).2.2.2.2.2.2.2, Cert.Mlp.unit_val (point_lt t)]; omega

end Cert.KernelIdeal.Blocks

end
-- ==== Proof.PointValues.lean ====
/-
  What the accumulator and the output block hold after each grid point, as the body's update of that point's four
  blocks: of the zero block at the first point, of what the point before left at every other; and at the last point
  the output block holds the same value as the accumulator.
-/
import proofs.«167758_j21182778703897_1_alg».proof.Proof.Pieces
import proofs.«167758_j21182778703897_1_alg».proof.Proof.Blocks

noncomputable section

open Idealize.ShloMosaic Idealize.ShloMosaic.TcCoe Idealize.SL.Sem

namespace Cert.KernelIdeal.PointValues

open Cert.KernelIdeal Cert.KernelIdeal.Gen Cert.KernelIdeal.Blocks

variable {F : FTy → Type} [FloatOps F]
variable (m : (ℓ : Loc nD τ sig) → Buf (Elt F) ℓ)

/-- What the point before `t` left in the accumulator. -/
abbrev prevAcc (c : Dev nD) (t : Fin cfg0.N) : Vec F S128x4096 .f32 :=
  (outsAt0 m c (t.val - 1) (Nat.lt_of_le_of_lt (Nat.sub_le _ _) t.isLt)).2

theorem acc_first (c : Dev nD) (t : Fin cfg0.N) (h0 : t.val % 86 = 0) (h1 : ¬t.val % 86 = 85) :
    (outsAt0 m c t.val t.isLt).2
      = k0_pay2 (xBlk m c t) (wgBlk m c t) (wuBlk m c t) (wdBlk m c t) (k0_pay1 (F := F)) := by
  rw [outsAt0_A m c t h0 h1]
  dsimp only
  exact Pieces.scratch_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

theorem acc_middle (c : Dev nD) (t : Fin cfg0.N) (h0 : ¬t.val % 86 = 0) (h1 : ¬t.val % 86 = 85) :
    (outsAt0 m c t.val t.isLt).2
      = k0_pay2 (xBlk m c t) (wgBlk m c t) (wuBlk m c t) (wdBlk m c t) (prevAcc m c t) := by
  rw [outsAt0_B m c t h0 h1]
  dsimp only
  exact Pieces.scratch_middle c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t)
    (outsAt0 m c (t.val - 1) (Nat.lt_of_le_of_lt (Nat.sub_le _ _) t.isLt)).2

theorem acc_last (c : Dev nD) (t : Fin cfg0.N) (h0 : ¬t.val % 86 = 0) (h1 : t.val % 86 = 85) :
    (outsAt0 m c t.val t.isLt).2
      = k0_pay2 (xBlk m c t) (wgBlk m c t) (wuBlk m c t) (wdBlk m c t) (prevAcc m c t) := by
  rw [outsAt0_C m c t h0 h1]
  dsimp only
  exact Pieces.scratch_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2

theorem out_last (c : Dev nD) (t : Fin cfg0.N) (h0 : ¬t.val % 86 = 0) (h1 : t.val % 86 = 85) :
    (outsAt0 m c t.val t.isLt).1
      = k0_pay2 (xBlk m c t) (wgBlk m c t) (wuBlk m c t) (wdBlk m c t) (prevAcc m c t) := by
  rw [outsAt0_C m c t h0 h1]
  dsimp only
  exact Pieces.out_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2

end Cert.KernelIdeal.PointValues

end
-- ==== Proof.Payload.lean ====
/-
  The body's arithmetic at ONE index, over the extended reals.

  At a grid point the body holds the whole activation block `x` [128, 4096], 128 rows of the gate and up weights
  (`wg`, `wu` : [128, 4096]) and 128 columns of the down weights (`wd` : [4096, 128]), and adds to the accumulator
    acc[p, q] + ∑ j < 128, ((g_j · σ(g_j)) · u_j) · wd[q, j],   g_j = ∑ k, x[p, k] · wg[j, k],  u_j = ∑ k, x[p, k] · wu[j, k].
  Each of the three matrix products contracts the LAST axis of both operands and starts from a zero accumulator, so at
  the exact instance it is a plain sum over the contracted coordinate; the changes of float format are the identity.
-/
import proofs.«167758_j21182778703897_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The two contractions' operand indices, coordinate by coordinate -/

theorem lhs_proj_0 (i : S128x128.Idx) (r : dot_S128x4096_S128x4096_S128x128_1_1_0_0_n_n.contr.Idx) :
    (dot_S128x4096_S128x4096_S128x128_1_1_0_0_n_n.lhsIdx i r 0).val = (i 0).val := by
  unfold DotDims.lhsIdx
  rw [dif_neg (show ¬(0 : Fin S128x4096.rank) ∈ dot_S128x4096_S128x4096_S128x128_1_1_0_0_n_n.lhsBatch by decide), dif_pos (show (0 : Fin S128x4096.rank) ∈ dot_S128x4096_S128x4096_S128x128_1_1_0_0_n_n.lhsNonContracting by decide)]
  rfl
theorem lhs_proj_1 (i : S128x128.Idx) (r : dot_S128x4096_S128x4096_S128x128_1_1_0_0_n_n.contr.Idx) :
    (dot_S128x4096_S128x4096_S128x128_1_1_0_0_n_n.lhsIdx i r 1).val = (r ⟨0, by decide⟩).val :=
  dot_S128x4096_S128x4096_S128x128_1_1_0_0_n_n.lhsIdx_val_of_single rfl i r
theorem rhs_proj_0 (i : S128x128.Idx) (r : dot_S128x4096_S128x4096_S128x128_1_1_0_0_n_n.contr.Idx) :
    (dot_S128x4096_S128x4096_S128x128_1_1_0_0_n_n.rhsIdx i r 0).val = (i 1).val := by
  unfold DotDims.rhsIdx
  rw [dif_neg (show ¬(0 : Fin S128x4096.rank) ∈ dot_S128x4096_S128x4096_S128x128_1_1_0_0_n_n.rhsBatch by decide), dif_pos (show (0 : Fin S128x4096.rank) ∈ dot_S128x4096_S128x4096_S128x128_1_1_0_0_n_n.rhsNonContracting by decide)]
  rfl
theorem rhs_proj_1 (i : S128x128.Idx) (r : dot_S128x4096_S128x4096_S128x128_1_1_0_0_n_n.contr.Idx) :
    (dot_S128x4096_S128x4096_S128x128_1_1_0_0_n_n.rhsIdx i r 1).val = (r ⟨0, by decide⟩).val :=
  dot_S128x4096_S128x4096_S128x128_1_1_0_0_n_n.rhsIdx_val_of_single rfl i r

theorem lhs_down_0 (i : S128x4096.Idx) (r : dot_S128x128_S4096x128_S128x4096_1_1_0_0_n_n.contr.Idx) :
    (dot_S128x128_S4096x128_S128x4096_1_1_0_0_n_n.lhsIdx i r 0).val = (i 0).val := by
  unfold DotDims.lhsIdx
  rw [dif_neg (show ¬(0 : Fin S128x128.rank) ∈ dot_S128x128_S4096x128_S128x4096_1_1_0_0_n_n.lhsBatch by decide), dif_pos (show (0 : Fin S128x128.rank) ∈ dot_S128x128_S4096x128_S128x4096_1_1_0_0_n_n.lhsNonContracting by decide)]
  rfl
theorem lhs_down_1 (i : S128x4096.Idx) (r : dot_S128x128_S4096x128_S128x4096_1_1_0_0_n_n.contr.Idx) :
    (dot_S128x128_S4096x128_S128x4096_1_1_0_0_n_n.lhsIdx i r 1).val = (r ⟨0, by decide⟩).val :=
  dot_S128x128_S4096x128_S128x4096_1_1_0_0_n_n.lhsIdx_val_of_single rfl i r
theorem rhs_down_0 (i : S128x4096.Idx) (r : dot_S128x128_S4096x128_S128x4096_1_1_0_0_n_n.contr.Idx) :
    (dot_S128x128_S4096x128_S128x4096_1_1_0_0_n_n.rhsIdx i r 0).val = (i 1).val := by
  unfold DotDims.rhsIdx
  rw [dif_neg (show ¬(0 : Fin S4096x128.rank) ∈ dot_S128x128_S4096x128_S128x4096_1_1_0_0_n_n.rhsBatch by decide), dif_pos (show (0 : Fin S4096x128.rank) ∈ dot_S128x128_S4096x128_S128x4096_1_1_0_0_n_n.rhsNonContracting by decide)]
  rfl
theorem rhs_down_1 (i : S128x4096.Idx) (r : dot_S128x128_S4096x128_S128x4096_1_1_0_0_n_n.contr.Idx) :
    (dot_S128x128_S4096x128_S128x4096_1_1_0_0_n_n.rhsIdx i r 1).val = (r ⟨0, by decide⟩).val :=
  dot_S128x128_S4096x128_S128x4096_1_1_0_0_n_n.rhsIdx_val_of_single rfl i r

/-! ## The products as sums -/

/-- Rows of `a` against rows of `b`, from a zero accumulator: `∑ k, a[p, k] · b[j, k]`. -/
theorem proj_apply {φ₁ φ₂ : FTy} (a : FVec Ideal S128x4096 φ₁) (b : FVec Ideal S128x4096 φ₂) (p j : Fin 128) :
    matmul dot_S128x4096_S128x4096_S128x128_1_1_0_0_n_n none a b (constant S128x128 .f32 0x00000000#32) (ix2 p j)
      = ∑ k : Fin 4096, a (ix2 p k) * b (ix2 j k) := by
  simp only [matmul]
  rw [Ideal.matmul_constant_zero_apply, ← Equiv.sum_comp (contrEquiv1 dot_S128x4096_S128x4096_S128x128_1_1_0_0_n_n 4096 rfl rfl).symm]
  refine Finset.sum_congr rfl fun k _ => ?_
  have hk := contrEquiv1_symm_val dot_S128x4096_S128x4096_S128x128_1_1_0_0_n_n 4096 rfl rfl k
  have el : dot_S128x4096_S128x4096_S128x128_1_1_0_0_n_n.lhsIdx (ix2 p j) ((contrEquiv1 dot_S128x4096_S128x4096_S128x128_1_1_0_0_n_n 4096 rfl rfl).symm k) = ix2 p k := funext fun a => Fin.ext (by
    match a with
    | ⟨0, _⟩ => exact lhs_proj_0 _ _
    | ⟨1, _⟩ => exact (lhs_proj_1 _ _).trans hk)
  have er : dot_S128x4096_S128x4096_S128x128_1_1_0_0_n_n.rhsIdx (ix2 p j) ((contrEquiv1 dot_S128x4096_S128x4096_S128x128_1_1_0_0_n_n 4096 rfl rfl).symm k) = ix2 j k := funext fun a => Fin.ext (by
    match a with
    | ⟨0, _⟩ => exact rhs_proj_0 _ _
    | ⟨1, _⟩ => exact (rhs_proj_1 _ _).trans hk)
  rw [el, er]

/-- Rows of `h` against rows of `w` (its 128 columns of the down weights), from a zero accumulator:
    `∑ j, h[p, j] · w[q, j]`. -/
theorem down_apply {φ₁ φ₂ : FTy} (h : FVec Ideal S128x128 φ₁) (w : FVec Ideal S4096x128 φ₂) (p : Fin 128) (q : Fin 4096) :
    matmul dot_S128x128_S4096x128_S128x4096_1_1_0_0_n_n none h w (constant S128x4096 .f32 0x00000000#32) (ix2 p q)
      = ∑ j : Fin 128, h (ix2 p j) * w (ix2 q j) := by
  simp only [matmul]
  rw [Ideal.matmul_constant_zero_apply, ← Equiv.sum_comp (contrEquiv1 dot_S128x128_S4096x128_S128x4096_1_1_0_0_n_n 128 rfl rfl).symm]
  refine Finset.sum_congr rfl fun k _ => ?_
  have hk := contrEquiv1_symm_val dot_S128x128_S4096x128_S128x4096_1_1_0_0_n_n 128 rfl rfl k
  have el : dot_S128x128_S4096x128_S128x4096_1_1_0_0_n_n.lhsIdx (ix2 p q) ((contrEquiv1 dot_S128x128_S4096x128_S128x4096_1_1_0_0_n_n 128 rfl rfl).symm k) = ix2 p k := funext fun a => Fin.ext (by
    match a with
    | ⟨0, _⟩ => exact lhs_down_0 _ _
    | ⟨1, _⟩ => exact (lhs_down_1 _ _).trans hk)
  have er : dot_S128x128_S4096x128_S128x4096_1_1_0_0_n_n.rhsIdx (ix2 p q) ((contrEquiv1 dot_S128x128_S4096x128_S128x4096_1_1_0_0_n_n 128 rfl rfl).symm k) = ix2 q k := funext fun a => Fin.ext (by
    match a with
    | ⟨0, _⟩ => exact rhs_down_0 _ _
    | ⟨1, _⟩ => exact (rhs_down_1 _ _).trans hk)
  rw [el, er]

/-! ## The two stored values at an index -/

/-- The reset stores the zero block. -/
theorem reset_apply (i : S128x4096.Idx) : k0_pay1 (F := Ideal) i = 0 := by
  unfold k0_pay1
  simp only [shapeCast_self, broadcast_apply]
  exact Ideal.ofBits_zero_f32

/-- The update: the accumulator plus this point's 128 hidden units' contribution. -/
theorem update_apply (x wg wu : Vec Ideal S128x4096 .f32) (wd : Vec Ideal S4096x128 .f32) (acc : Vec Ideal S128x4096 .f32)
    (p : Fin 128) (q : Fin 4096) :
    k0_pay2 (F := Ideal) x wg wu wd acc (ix2 p q)
      = acc (ix2 p q) + ∑ j : Fin 128,
          (∑ k : Fin 4096, x (ix2 p k) * wg (ix2 j k)) * Ideal.logistic (∑ k : Fin 4096, x (ix2 p k) * wg (ix2 j k))
            * (∑ k : Fin 4096, x (ix2 p k) * wu (ix2 j k)) * wd (ix2 q j) := by
  unfold k0_pay2
  simp only [shapeCast_self]
  rw [addf_apply, down_apply]
  refine congrArg (acc (ix2 p q) + ·) (Finset.sum_congr rfl fun j _ => ?_)
  simp only [truncf_apply, mulf_apply, proj_apply, logistic, Ideal.logistic_def]

end Cert.KernelIdeal.Payload

end
-- ==== Proof.Accumulate.lean ====
/-
  The accumulation over the grid, at the exact instance.

  One point's update adds to the accumulator, at `[p, q]`, the share of that point's 128 hidden units
  (`Cert.Mlp.tilePart` of the four ARRAYS: the blocks read where they sit). So after point `n` the accumulator holds
  the running sum of the shares from the stored zero, and the output block stored at the last point holds the sum of
  all 86 shares, which is the whole sum over the 11008 hidden units.
-/
import proofs.«167758_j21182778703897_1_alg».proof.Proof.PointValues
import proofs.«167758_j21182778703897_1_alg».proof.Proof.Payload

noncomputable section

open Idealize.ShloMosaic Idealize.ShloMosaic.TcCoe Idealize.SL.Sem Idealize.ShloMosaic.ValueIdx

namespace Cert.KernelIdeal.Accumulate

open Cert.KernelIdeal Cert.KernelIdeal.Gen Cert.KernelIdeal.Blocks Cert.KernelIdeal.PointValues

variable (m : (ℓ : Loc nD τ sig) → Buf (Elt Ideal) ℓ)

/-- Tile `t`'s share of the output at `[p, q]`, of the arrays as the region finds them. -/
abbrev share (c : Dev nD) (p : Fin 128) (q : Fin 4096) : ℕ → EReal :=
  Cert.Mlp.tilePart (xArr m c) (wgArr m c) (wuArr m c) (wdArr m c) p q

/-- The whole result, of the arrays as the region finds them. -/
abbrev whole (c : Dev nD) : Vec Ideal S128x4096 .f32 :=
  Cert.Mlp.mlp (xArr m c) (wgArr m c) (wuArr m c) (wdArr m c)

/-- One point's update adds its tile's share. -/
theorem step (c : Dev nD) (t : Fin cfg0.N) (acc : Vec Ideal S128x4096 .f32) (p : Fin 128) (q : Fin 4096) :
    k0_pay2 (F := Ideal) (xBlk m c t) (wgBlk m c t) (wuBlk m c t) (wdBlk m c t) acc (ix2 p q)
      = acc (ix2 p q) + share m c p q t.val := by
  refine (Payload.update_apply (xBlk m c t) (wgBlk m c t) (wuBlk m c t) (wdBlk m c t) acc p q).trans ?_
  unfold share Cert.Mlp.tilePart Cert.Mlp.hidden Cert.Mlp.proj
  simp only [xBlk_apply, wgBlk_apply, wuBlk_apply, wdBlk_apply]

/-- After point `n` the accumulator holds the running sum of the shares. -/
theorem acc_eq (c : Dev nD) : ∀ (n : ℕ) (hn : n < cfg0.N) (p : Fin 128) (q : Fin 4096),
    (outsAt0 m c n hn).2 (ix2 p q) = TileSum.running (share m c p q) n
  | 0, hn, p, q => by
    have e0 := congrFun (acc_first m c ⟨0, hn⟩ rfl (by dsimp only; omega)) (ix2 p q)
    have e1 := step m c ⟨0, hn⟩ (k0_pay1 (F := Ideal)) p q
    rw [Payload.reset_apply (ix2 p q)] at e1
    exact e0.trans (e1.trans (TileSum.running_zero (share m c p q)).symm)
  | n + 1, hn, p, q => by
    have hN : n + 1 < 86 := lt_of_lt_of_eq hn (show cfg0.N = 86 from N_0)
    have h0 : ¬(⟨n + 1, hn⟩ : Fin cfg0.N).val % 86 = 0 := by dsimp only; omega
    have ih := acc_eq c n (Nat.lt_of_succ_lt hn) p q
    by_cases h1 : (⟨n + 1, hn⟩ : Fin cfg0.N).val % 86 = 85
    · refine (congrFun (acc_last m c ⟨n + 1, hn⟩ h0 h1) (ix2 p q)).trans ?_
      refine (step m c ⟨n + 1, hn⟩ _ p q).trans ?_
      rw [TileSum.running_succ]
      exact congrArg (· + share m c p q (n + 1)) ih
    · refine (congrFun (acc_middle m c ⟨n + 1, hn⟩ h0 h1) (ix2 p q)).trans ?_
      refine (step m c ⟨n + 1, hn⟩ _ p q).trans ?_
      rw [TileSum.running_succ]
      exact congrArg (· + share m c p q (n + 1)) ih

theorem last_lt : 85 < cfg0.N := by rw [show cfg0.N = 86 from N_0]; decide

/-- The output block stored at the last point holds the whole result. (Stated at a point `t` known only by
    `t mod 86 = 85`: the recursion that defines the contents point by point is never run at a numeral.) -/
theorem out_eq (c : Dev nD) (t : Fin cfg0.N) (h1 : t.val % 86 = 85) : (outsAt0 m c t.val t.isLt).1 = whole m c := by
  have hN := point_lt t
  have ht : t.val = 84 + 1 := by omega
  have h0 : ¬t.val % 86 = 0 := by omega
  funext i
  obtain ⟨p, q, rfl⟩ : ∃ (p : Fin 128) (q : Fin 4096), i = ix2 p q := ⟨i 0, i 1, eq_ix2 i⟩
  refine (congrFun (out_last m c t h0 h1) (ix2 p q)).trans ?_
  refine (step m c t _ p q).trans ?_
  have hprev := acc_eq m c (t.val - 1) (Nat.lt_of_le_of_lt (Nat.sub_le _ _) t.isLt) p q
  refine (congrArg (· + share m c p q t.val) hprev).trans ?_
  have hs : ∀ k : ℕ, k = 84 + 1 →
      TileSum.running (share m c p q) (k - 1) + share m c p q k = whole m c (ix2 p q) := by
    intro k hk
    subst hk
    rw [Nat.add_sub_cancel, ← TileSum.running_succ, Cert.Mlp.running_tiles]
    exact (Cert.Mlp.mlp_eq_sum_tiles (xArr m c) (wgArr m c) (wuArr m c) (wdArr m c) p q).symm
  exact hs t.val ht

end Cert.KernelIdeal.Accumulate

end
-- ==== Proof.KernelRun.lean ====
/-
  The kernel's run, read as a value.

  The output window has one block, the whole [128, 4096] array, written back once, after the last grid point; what
  is written is the output block stored there, which holds the whole result (`Accumulate.out_eq`). The program then
  reshapes that array to [4, 32, 4096]. The activations the region reads are the argument reshaped to [128, 4096];
  the three weight arrays are the arguments themselves.
-/
import proofs.«167758_j21182778703897_1_alg».proof.Proof.Accumulate
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.KernelIdeal.Accumulate

variable (m : (ℓ : Loc nD τ sig) → Buf (Elt Ideal) ℓ) (ρ : Dev nD → PrngReg)

/-- The last grid point. -/
abbrev tLast : Fin cfg0.N := ⟨85, last_lt⟩

/-- The whole result as contents of the region's output array. -/
abbrev result (c : Dev nD) : Buf (Elt Ideal) ((c : Thread nD τ).loc main_v1) := whole m c

/-- The output window's block index never moves: decided once over the grid. -/
theorem out_index : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- The one write-back, after the last point, writes the whole result: block (0, 0) of the array is the array. -/
theorem flushed_eq (c : Dev nD) (t : Fin cfg0.N) (hf : (cfg0.win 4).flush t = true) :
    (dats m 0 c).flushed 4 t = ((cfg0.win 4).blk t).view.read (Elt Ideal) (result m c) := by
  have h1 : t.val % 86 = 85 := (flush0_4 t).mp hf
  show (cfg0.win 4).cut (grid0.coords t) ((dats m 0 c).after 4 t) = _
  rw [after0_4, out_eq m c t h1]
  have hz' : (fun a => win0_4.index t a * main_v1.ty.shape.size a) = fun _ => 0 := funext fun a => by
    match a with
    | ⟨0, _⟩ => show win0_4.index t 0 * 128 = 0; rw [(out_index t).1]
    | ⟨1, _⟩ => show win0_4.index t 1 * 4096 = 0; rw [(out_index t).2]
  exact (Memref.read_access_unit_zero (Elt Ideal) main_v1 hz' (fun a => by rw [congrFun hz' a]; simp) (result m c)).symm

/-- So the region's output array ends holding the whole result. -/
theorem final (c : Dev nD) : (dats m 0 c).arrAt 4 cfg0.N = result m c :=
  (dats m 0 c).arrAt_eq_of_cover 4 (result m c) (flushed_eq m c) fun i =>
    ⟨tLast, (flush0_4 tLast).mpr rfl, by
      show i ∈ ((View.whole main_v1).slice (win0_4.rect tLast)).set
      rw [View.set_slice_whole, Rect.mem_set_unit]
      intro a
      have h0 : (i 0 : Nat) < 128 := (i 0).isLt
      have h1 : (i 1 : Nat) < 4096 := (i 1).isLt
      match a with
      | ⟨0, _⟩ =>
        show win0_4.index tLast 0 * win0_4.size 0 ≤ (i 0 : Nat) ∧ (i 0 : Nat) < win0_4.index tLast 0 * win0_4.size 0 + win0_4.xsize (grid0.coords tLast) 0
        rw [show win0_4.index tLast 0 * win0_4.size 0 = 0 from by decide +kernel, show win0_4.xsize (grid0.coords tLast) 0 = 128 from by decide +kernel]; omega
      | ⟨1, _⟩ =>
        show win0_4.index tLast 1 * win0_4.size 1 ≤ (i 1 : Nat) ∧ (i 1 : Nat) < win0_4.index tLast 1 * win0_4.size 1 + win0_4.xsize (grid0.coords tLast) 1
        rw [show win0_4.index tLast 1 * win0_4.size 1 = 0 from by decide +kernel, show win0_4.xsize (grid0.coords tLast) 1 = 4096 from by decide +kernel]; omega⟩

/-- The activations the region reads are the argument, flattened to rows. -/
theorem xArr_eq (c : Dev nD) :
    xArr m c = shapeCast S128x4096 (m ((c : Thread nD τ).loc main_arg0)) shapeCasts_S4x32x4096_S128x4096 := by
  show StableHlo.after hostOps0 (fun b => m (c, b)) (Proc.devRef .tc main_v0) = _
  after_results
  rfl

/-- The program's result: the region's output array reshaped to [4, 32, 4096]. -/
theorem tail_eq (c : Dev nD) :
    Pipeline.afterTail₀ cfgs (dats m) 0 (V0 m) [hostOps1] c main_v2
      = shapeCast S4x32x4096 (result m c) shapeCasts_S128x4096_S4x32x4096 := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = result m c :=
    (Pipeline.withArrays_arr spec0 launch0.win.arr_inj c _ _ 4).trans (final m c)
  rw [hw]
  rfl

/-- The program's result as a function of the four arguments: the block's function of the flattened activations,
    reshaped back. -/
abbrev value (c : Dev nD) : Buf (Elt Ideal) ((c : Thread nD τ).loc main_v2) :=
  shapeCast S4x32x4096
    (Cert.Mlp.mlp (shapeCast S128x4096 (m ((c : Thread nD τ).loc main_arg0)) shapeCasts_S4x32x4096_S128x4096)
      (m ((c : Thread nD τ).loc main_arg1)) (m ((c : Thread nD τ).loc main_arg2)) (m ((c : Thread nD τ).loc main_arg3)))
    shapeCasts_S128x4096_S4x32x4096

theorem result_eq (c : Dev nD) :
    shapeCast S4x32x4096 (result m c) shapeCasts_S128x4096_S4x32x4096 = value m c := by
  show shapeCast S4x32x4096 (Cert.Mlp.mlp (xArr m c) (wgArr m c) (wuArr m c) (wdArr m c)) _ = _
  rw [xArr_eq m c, show wgArr m c = m ((c : Thread nD τ).loc main_arg1) from V_main_arg1 m c,
    show wuArr m c = m ((c : Thread nD τ).loc main_arg2) from V_main_arg2 m c,
    show wdArr m c = m ((c : Thread nD τ).loc main_arg3) from V_main_arg3 m c]

/-- The run, read: every weakly fair execution ends with the result at `value` and the arguments unchanged. -/
theorem run : θ_run defs (onTc (τ := τ) (main (F := Ideal))) ⟨m, fun _ => 0, ρ⟩ fun r => ∀ c : Dev nD,
      r.2.mem ((c.tc : Thread nD τ).loc main_v2) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Result

end
-- ==== Proof.RefValue.lean ====
/-
  The reference is the same function.

  The reference works on the activations as [4, 32, 4096]; flattened to rows `32 b + s` its three contractions and the
  gate are, index by index, the block's function `Cert.Mlp.mlp`: each `dot_general` contracts the last axis of both
  operands (a plain sum at the exact instance), and the gate is spelt `g · (1 / (1 + e^(-g)))`, which is the logistic
  function by definition. So the reference's result is `mlp` of the flattened activations, reshaped back.
-/
import proofs.«167758_j21182778703897_1_alg».proof.Proof.Gen.ReferenceIdeal.Run
import proofs.«167758_j21182778703897_1_alg».proof.Proof.Gen.ReferenceIdeal.Read
import proofs.«167758_j21182778703897_1_alg».proof.Proof.Spec
import Idealize.ShloMosaic.Lib.Pipeline.Value
import Idealize.ShloMosaic.Lib.ValueIdx
import Idealize.ShloMosaic.PureOps.IdealRules

noncomputable section

namespace Cert.ReferenceIdeal.RefValue

open Cert.ReferenceIdeal Cert.ReferenceIdeal.Gen Cert.ReferenceIdeal.Read
open Idealize.ShloMosaic Idealize.ShloMosaic.ValueIdx

/-- Batch position `(b, s)` as a row of the flattened activations. -/
abbrev row (b : Fin 4) (s : Fin 32) : Fin 128 := ⟨32 * b.val + s.val, by omega⟩

/-- The flattened activations at `[32 b + s, k]` are the activations at `[b, s, k]`; -/
theorem flat_apply {α : Type} (x : S4x32x4096.Idx → α) (h : S4x32x4096.ShapeCasts Cert.Mlp.SX) (b : Fin 4) (s : Fin 32) (k : Fin 4096) :
    shapeCast Cert.Mlp.SX x h (ix2 (row b s) k) = x (ix3 b s k) :=
  shapeCast_apply x h _ _ (by
    rw [Shape.rowMajor_val_three, Shape.rowMajor_val_two]
    show (b.val * 32 + s.val) * 4096 + k.val = (32 * b.val + s.val) * 4096 + k.val
    omega)

/-- and a [128, 4096] array reshaped to [4, 32, 4096] reads, at `[b, s, q]`, its row `32 b + s`. -/
theorem unflat_apply {α : Type} (y : Cert.Mlp.SX.Idx → α) (h : Cert.Mlp.SX.ShapeCasts S4x32x4096) (b : Fin 4) (s : Fin 32) (q : Fin 4096) :
    shapeCast S4x32x4096 y h (ix3 b s q) = y (ix2 (row b s) q) :=
  shapeCast_apply y h _ _ (by
    rw [Shape.rowMajor_val_three, Shape.rowMajor_val_two]
    show (32 * b.val + s.val) * 4096 + q.val = (b.val * 32 + s.val) * 4096 + q.val
    omega)

/-- The literal `1.0`. -/
theorem one_f32 : Ideal.ofBits .f32 0x3F800000#32 = 1 := IdealRules.sign_bit.ideal_onePat .f32

/-- A projection of the reference is the block's, at the flattened row. -/
theorem proj_eq (x : FVec Ideal S4x32x4096 .f32) (w : FVec Ideal S11008x4096 .f32) (h1 : S4x32x4096.ShapeCasts Cert.Mlp.SX)
    (b : Fin 4) (s : Fin 32) (n : Fin 11008) :
    val_main_v0 (F := Ideal) x w (ix3 b s n) = Cert.Mlp.proj (shapeCast Cert.Mlp.SX x h1) w (row b s) n := by
  rw [val_main_v0_apply]
  unfold Cert.Mlp.proj
  refine Finset.sum_congr rfl fun k _ => ?_
  rw [flat_apply]
  have e1 : lidx_main_v0 (ix3 b s n) k = ix3 b s k := funext fun a => Fin.ext (by
    match a with
    | ⟨0, _⟩ => rfl
    | ⟨1, _⟩ => rfl
    | ⟨2, _⟩ => rfl)
  have e2 : ridx_main_v0 (ix3 b s n) k = ix2 n k := funext fun a => Fin.ext (by
    match a with
    | ⟨0, _⟩ => rfl
    | ⟨1, _⟩ => rfl)
  rw [e1, e2]

/-- The gated hidden activation likewise: the reference's `g · (1 / (1 + e^(-g))) · u`. -/
theorem hidden_eq (x : FVec Ideal S4x32x4096 .f32) (wg wu : FVec Ideal S11008x4096 .f32) (h1 : S4x32x4096.ShapeCasts Cert.Mlp.SX)
    (b : Fin 4) (s : Fin 32) (n : Fin 11008) :
    val_main_v3 (F := Ideal) x wg wu (ix3 b s n) = Cert.Mlp.hidden (shapeCast Cert.Mlp.SX x h1) wg wu (row b s) n := by
  rw [val_main_v3_apply, val_main_v1_apply, val_main_call0_v5_apply, val_main_call0_v4_apply, val_main_call0_cst_0_apply,
    val_main_call0_v3_apply, val_main_call0_v2_apply, val_main_call0_cst_apply, val_main_call0_v1_apply,
    val_main_call0_v0_apply]
  rw [show val_main_v2 (F := Ideal) x wu = val_main_v0 (F := Ideal) x wu from rfl, proj_eq x wg h1, proj_eq x wu h1]
  unfold Cert.Mlp.hidden Ideal.logistic
  simp only [Ideal.mulf_def, Ideal.hostDivf_def, Ideal.addf_def, Ideal.hostUnary_exp_def, Ideal.hostNegf_def,
    Ideal.negf_def, Ideal.ofBits_def, one_f32]

/-- The reference's result is the block's function of the flattened activations, reshaped back. -/
theorem ref_eq (x : FVec Ideal S4x32x4096 .f32) (wg wu : FVec Ideal S11008x4096 .f32) (wd : FVec Ideal S4096x11008 .f32)
    (h1 : S4x32x4096.ShapeCasts Cert.Mlp.SX) (h2 : Cert.Mlp.SX.ShapeCasts S4x32x4096) :
    val_main_v4 (F := Ideal) x wg wu wd
      = shapeCast S4x32x4096 (Cert.Mlp.mlp (shapeCast Cert.Mlp.SX x h1) wg wu wd) h2 := by
  funext i
  obtain ⟨b, s, q, rfl⟩ : ∃ (b : Fin 4) (s : Fin 32) (q : Fin 4096), i = ix3 b s q := ⟨i 0, i 1, i 2, eq_ix3 i⟩
  rw [val_main_v4_apply, unflat_apply]
  unfold Cert.Mlp.mlp
  refine Finset.sum_congr rfl fun n _ => ?_
  have e1 : lidx_main_v4 (ix3 b s q) n = ix3 b s n := funext fun a => Fin.ext (by
    match a with
    | ⟨0, _⟩ => rfl
    | ⟨1, _⟩ => rfl
    | ⟨2, _⟩ => rfl)
  have e2 : ridx_main_v4 (ix3 b s q) n = ix2 q n := funext fun a => Fin.ext (by
    match a with
    | ⟨0, _⟩ => rfl
    | ⟨1, _⟩ => rfl)
  rw [e1, e2, hidden_eq x wg wu h1]

end Cert.ReferenceIdeal.RefValue

end
-- ==== Proof.lean ====
/-
  A gated feed-forward block, `down(silu(x · Wgᵀ) ⊙ (x · Wuᵀ))`, computed by one kernel that walks the 11008 hidden
  units in 86 tiles of 128 and accumulates each tile's contribution to the [128, 4096] output in a scratch buffer,
  against the same block written as three whole contractions.

  Over the extended reals the two are one function of the four arrays:
  * a change of float format is the identity, and each matrix product from a zero accumulator is a plain sum over the
    contracted coordinate, in the kernel and in the reference alike;
  * the kernel's logistic operation is `1 / (1 + e^(-g))` by definition, which is what the reference spells out, and
    both sides group the gate as `(g · σ(g)) · u`;
  * the kernel's result is the running sum `((0 + P₀) + P₁) + … + P₈₅` of the tiles' shares `Pₜ`, the reference's the one
    sum over all hidden units: a regrouping of one sum, which needs only that `+` is commutative and associative.
  So nothing is asked of the inputs beyond being there: the precondition is not used.

  The modules: `LibTileSum` (a sum cut into tiles; the running sum), `Spec` (the block as one function),
  `Payload` (the body's arithmetic at an index), `Pieces` and `PointValues` (what a grid point leaves), `Blocks`
  (where a block sits in its array), `Accumulate` (the induction over the grid), `KernelRun` (the write-back, the
  reshape after the region, the run), `RefValue` (the reference is the same function).
-/
import proofs.«167758_j21182778703897_1_alg».proof.Defs
import proofs.«167758_j21182778703897_1_alg».proof.Proof.Gen.Kernel
import proofs.«167758_j21182778703897_1_alg».proof.Proof.Gen.Kernel.Skeleton
import proofs.«167758_j21182778703897_1_alg».proof.Proof.Gen.Kernel.Launch
import proofs.«167758_j21182778703897_1_alg».proof.Proof.Gen.Kernel.Points
import proofs.«167758_j21182778703897_1_alg».proof.Proof.Gen.Kernel.Frame
import proofs.«167758_j21182778703897_1_alg».proof.Proof.Gen.KernelIdeal
import proofs.«167758_j21182778703897_1_alg».proof.Proof.Gen.KernelIdeal.Skeleton
import proofs.«167758_j21182778703897_1_alg».proof.Proof.Gen.KernelIdeal.Launch
import proofs.«167758_j21182778703897_1_alg».proof.Proof.Gen.KernelIdeal.Points
import proofs.«167758_j21182778703897_1_alg».proof.Proof.Gen.KernelIdeal.Frame
import proofs.«167758_j21182778703897_1_alg».proof.Proof.Gen.ReferenceIdeal
import proofs.«167758_j21182778703897_1_alg».proof.Proof.Gen.ReferenceIdeal.Run
import proofs.«167758_j21182778703897_1_alg».proof.Proof.Gen.ReferenceIdeal.Read
import proofs.«167758_j21182778703897_1_alg».proof.Proof.Gen.Pre_finite_inputs
import proofs.«167758_j21182778703897_1_alg».proof.Proof.KernelRun
import proofs.«167758_j21182778703897_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the block's function of the flattened activations, reshaped back, of arguments that agree. -/
theorem algebraic : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq,
    Cert.ReferenceIdeal.RefValue.ref_eq _ _ _ _ Cert.KernelIdeal.Gen.shapeCasts_S4x32x4096_S128x4096
      Cert.KernelIdeal.Gen.shapeCasts_S128x4096_S4x32x4096,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
